-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S_ : Shape := ⟨0, ![]⟩
abbrev S16x2048 : Shape := ⟨2, ![16, 2048]⟩
abbrev S8x3x256 : Shape := ⟨3, ![8, 3, 256]⟩
abbrev S8x3x2048 : Shape := ⟨3, ![8, 3, 2048]⟩
abbrev S8x256 : Shape := ⟨2, ![8, 256]⟩
abbrev S8x2048 : Shape := ⟨2, ![8, 2048]⟩
abbrev S8x256x2048 : Shape := ⟨3, ![8, 256, 2048]⟩
abbrev S8x1x256 : Shape := ⟨3, ![8, 1, 256]⟩
abbrev S8x1x2048 : Shape := ⟨3, ![8, 1, 2048]⟩
abbrev S8x256x1 : Shape := ⟨3, ![8, 256, 1]⟩
abbrev S16 : Shape := ⟨1, ![16]⟩

abbrev nBuf : Space → Nat
  | .hbm => 23
  | .vmem => 10
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x3x2048, .f32⟩
  | .hbm, ⟨4, _⟩ => ⟨S16x2048x3, .f32⟩
  | .hbm, ⟨5, _⟩ => ⟨S_, .f32⟩
  | .hbm, ⟨6, _⟩ => ⟨S16x2048, .f32⟩
  | .hbm, ⟨7, _⟩ => ⟨S16x2048x3, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .local _ .vmem, ⟨0, _⟩ => ⟨S8x3x256, .f32⟩
  | .local _ .vmem, ⟨1, _⟩ => ⟨S8x3x256, .f32⟩
  | .local _ .vmem, ⟨2, _⟩ => ⟨S8x3x2048, .f32⟩
  | .local _ .vmem, ⟨3, _⟩ => ⟨S8x256, .f32⟩
  | .local _ .vmem, ⟨4, _⟩ => ⟨S8x256, .f32⟩
  | .local _ .vmem, ⟨5, _⟩ => ⟨S8x2048, .f32⟩
  | .local _ .vmem, ⟨6, _⟩ => ⟨S8x256, .f32⟩
  | .local _ .vmem, ⟨7, _⟩ => ⟨S8x256, .f32⟩
  | .local _ .vmem, ⟨8, _⟩ => ⟨S8x2048, .f32⟩
  | .local _ .vmem, ⟨9, _⟩ => ⟨S8x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S16x2048x3_S16x3x2048_0_2_1 : S16x2048x3.Transposes [0, 2, 1] S16x3x2048
  reducesTo_S16x2048x3_S16x2048_d2 : S16x2048x3.ReducesTo [2] S16x2048
  h_S_ : 0 < S_.numel
  inb_S8x2048_S8x2048_0_0 : ∀ a, (![0, 0] : Fin 2 → Nat) a + S8x2048.size a ≤ S8x2048.size a
  h_S8x2048 : 0 < S8x2048.numel
  inb_S8x3x256_S8x1x256_0_0_0 : ∀ a, (![0, 0, 0] : Fin 3 → Nat) a + S8x1x256.size a ≤ S8x3x256.size a
  h_S8x1x256 : 0 < S8x1x256.numel
  shapeCasts_S8x1x256_S8x256 : S8x1x256.ShapeCasts S8x256
  inb_S8x3x2048_S8x1x2048_0_0_0 : ∀ a, (![0, 0, 0] : Fin 3 → Nat) a + S8x1x2048.size a ≤ S8x3x2048.size a
  h_S8x1x2048 : 0 < S8x1x2048.numel
  shapeCasts_S8x1x2048_S8x2048 : S8x1x2048.ShapeCasts S8x2048
  shapeCasts_S8x256_S8x256x1 : S8x256.ShapeCasts S8x256x1
  shapeCasts_S8x2048_S8x1x2048 : S8x2048.ShapeCasts S8x1x2048
  broadcasts_S8x256x1_S8x256x2048 : S8x256x1.Broadcasts S8x256x2048
  broadcasts_S8x1x2048_S8x256x2048 : S8x1x2048.Broadcasts S8x256x2048
  inb_S8x3x256_S8x1x256_0_1_0 : ∀ a, (![0, 1, 0] : Fin 3 → Nat) a + S8x1x256.size a ≤ S8x3x256.size a
  inb_S8x3x2048_S8x1x2048_0_1_0 : ∀ a, (![0, 1, 0] : Fin 3 → Nat) a + S8x1x2048.size a ≤ S8x3x2048.size a
  inb_S8x3x256_S8x1x256_0_2_0 : ∀ a, (![0, 2, 0] : Fin 3 → Nat) a + S8x1x256.size a ≤ S8x3x256.size a
  inb_S8x3x2048_S8x1x2048_0_2_0 : ∀ a, (![0, 2, 0] : Fin 3 → Nat) a + S8x1x2048.size a ≤ S8x3x2048.size a
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x2048_S8x2048 : S8x2048.ShapeCasts S8x2048
  reduces_S8x256x2048_S8x256 : S8x256x2048.Reduces [2] S8x256
  reduces_S8x256x2048_S8x2048 : S8x256x2048.Reduces [1] S8x2048
  reducesTo_S16x2048_S16_d1 : S16x2048.ReducesTo [1] S16
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256.size a ≤ S16x3x2048.size a
  hwx0_0 : ∀ i : grid0.Coords, EltTy.bits .f32 = 32 ∨ (Rect.block (s := S16x3x2048) S8x3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3x2048.size a ≤ S16x3x2048.size a
  hwx0_1 : ∀ i : grid0.Coords, EltTy.bits .f32 = 32 ∨ (Rect.block (s := S16x3x2048) S8x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S16x2048.size a
  hwx0_2 : ∀ i : grid0.Coords, EltTy.bits .f32 = 32 ∨ (Rect.block (s := S16x2048) S8x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S16x2048.size a
  hwx0_3 : ∀ i : grid0.Coords, EltTy.bits .f32 = 32 ∨ (Rect.block (s := S16x2048) S8x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x2048.size a
  hwx0_4 : ∀ i : grid0.Coords, EltTy.bits .f32 = 32 ∨ (Rect.block (s := S16x2048) S8x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S16x2048.size a
  hwx0_5 : ∀ i : grid0.Coords, EltTy.bits .f32 = 32 ∨ (Rect.block (s := S16x2048) S8x2048.size (cc0_transform_5 i) (hinb0_5 i)).WholeWords (EltTy.packing .f32)

variable [Facts₀]

abbrev win0_0 : Pipeline.Window sig grid0 :=
  Pipeline.Window.ofSpec (Memref.whole main_v0) S8x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S8x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S8x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S16 : Shape := ⟨1, ![16]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d1 : S16x2048x2048.ReducesTo [1] S16x2048
  reducesTo_S16x2048x2048_S16x2048_d2 : S16x2048x2048.ReducesTo [2] S16x2048
  reducesTo_S16x2048_S16_d1 : S16x2048.ReducesTo [1] S16
  bcast_S_S16 : S_.BroadcastsInDim S16 (![] : Fin 0 → Fin S16.rank)
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.Spec.lean ====
/-
  The specification both programs meet, over the extended reals.

  For two clouds of 2048 points of ℝ³ per batch entry (`x`, `y` : [16, 2048, 3]) and per-point scalars
  `rx`, `ry` : [16, 2048] (the squared norms, which both programs compute by the same host operations, so they stay
  parameters here), the pairwise quantity is

      sqd b i j = (rx b i + ry b j) - two * ∑ k : Fin 3, x b i k * y b j k ,

  `nearY b i` is its minimum over `j` (for each point of `x` the nearest of `y`) and `nearX b j` its minimum over `i`.
  A minimum is a fold of `min` from `top`; nothing below evaluates `two` or `top`, and no finiteness is used:
  only that `min` is the meet of a linear order (`c ≤ min a b ↔ c ≤ a ∧ c ≤ b`).

  The second half is the one order fact the kernel's tiling needs: a minimum over `Fin 2048` taken tile by tile,
  256 indices at a time, each tile's minimum combined into a running value by `min`, is characterised by its lower
  bounds, and after the eighth tile it is the minimum over all of `Fin 2048`.
-/
import Idealize.ShloMosaic.PureOps.Ideal
import Idealize.ShloMosaic.Lib.ValueIdx

noncomputable section

namespace Cert.Nearest

open Idealize.ShloMosaic Idealize.ShloMosaic.ValueIdx

/-- The shape of a cloud array, [16, 2048, 3], and of a per-point scalar array, [16, 2048]. -/
abbrev Pts : Shape := ⟨3, ![16, 2048, 3]⟩
abbrev Sc : Shape := ⟨2, ![16, 2048]⟩

section Defs
variable (two top : EReal) (rx ry : Sc.Idx → EReal) (x y : Pts.Idx → EReal)

/-- The inner product of point `i` of `x` and point `j` of `y` in batch entry `b`. -/
def cross (b : Fin 16) (i j : Fin 2048) : EReal := ∑ k : Fin 3, x (ix3 b i k) * y (ix3 b j k)

/-- The pairwise quantity: `(rx b i + ry b j) - two * ⟨x b i, y b j⟩`. -/
def sqd (b : Fin 16) (i j : Fin 2048) : EReal := (rx (ix2 b i) + ry (ix2 b j)) - two * cross x y b i j

/-- For each point `i` of `x`: the minimum over the points `j` of `y`. -/
def nearY : Sc.Idx → EReal := fun p => Finset.univ.fold min top fun j : Fin 2048 => sqd two rx ry x y (p 0) (p 1) j

/-- For each point `j` of `y`: the minimum over the points `i` of `x`. -/
def nearX : Sc.Idx → EReal := fun p => Finset.univ.fold min top fun i : Fin 2048 => sqd two rx ry x y (p 0) i (p 1)

end Defs

/-! ## A minimum over `Fin 2048`, 256 indices at a time -/

/-- `acc` is the minimum of `top` and of `f` over the indices below `n`, said by its lower bounds. -/
def IsMinBelow (top : EReal) (f : Fin 2048 → EReal) (n : ℕ) (acc : EReal) : Prop :=
  ∀ c : EReal, c ≤ acc ↔ c ≤ top ∧ ∀ i : Fin 2048, i.val < n → c ≤ f i

/-- Nothing below `0`: `top` itself. -/
theorem isMinBelow_zero (top : EReal) (f : Fin 2048 → EReal) : IsMinBelow top f 0 top :=
  fun _ => ⟨fun h => ⟨h, fun i hi => absurd hi (Nat.not_lt_zero _)⟩, fun h => h.1⟩

/-- One more tile: if `acc` is the minimum below `256 * n`, then `min acc` (the minimum, from `top`, over the tile
    `256 * n + k`, `k < 256`) is the minimum below `256 * (n + 1)`. -/
theorem IsMinBelow.tile {top : EReal} {f : Fin 2048 → EReal} {n : ℕ} (hn : n < 8) {acc : EReal}
    (h : IsMinBelow top f (256 * n) acc) :
    IsMinBelow top f (256 * (n + 1))
      (min acc (Finset.univ.fold min top fun k : Fin 256 => f ⟨256 * n + k.val, by have := k.isLt; omega⟩)) := by
  intro c
  rw [le_min_iff, h c, Finset.le_fold_min]
  constructor
  · rintro ⟨⟨ht, hlo⟩, -, hhi⟩
    refine ⟨ht, fun i hi => ?_⟩
    by_cases hlt : i.val < 256 * n
    · exact hlo i hlt
    · have hk : i.val - 256 * n < 256 := by omega
      have e : (⟨256 * n + (⟨i.val - 256 * n, hk⟩ : Fin 256).val, by have := i.isLt; simp only; omega⟩ : Fin 2048) = i :=
        Fin.ext (by simp only; omega)
      have := hhi ⟨i.val - 256 * n, hk⟩ (Finset.mem_univ _)
      rwa [e] at this
  · rintro ⟨ht, hall⟩
    exact ⟨⟨ht, fun i hi => hall i (by omega)⟩, ht, fun k _ => hall _ (by have := k.isLt; simp only; omega)⟩

/-- All eight tiles: the minimum below `2048` is the minimum over `Fin 2048`. -/
theorem IsMinBelow.eq_fold {top : EReal} {f : Fin 2048 → EReal} {acc : EReal} (h : IsMinBelow top f 2048 acc) :
    acc = Finset.univ.fold min top f :=
  eq_of_forall_le_iff fun c => by
    rw [h c, Finset.le_fold_min]
    exact ⟨fun ⟨ht, hall⟩ => ⟨ht, fun i _ => hall i i.isLt⟩, fun ⟨ht, hall⟩ => ⟨ht, fun i _ => hall i (Finset.mem_univ _)⟩⟩

end Cert.Nearest

end
-- ==== Proof.RefSide.lean ====
/-
  The reference program read at an index: its two nearest-neighbour arrays are the specification's.

  The reference forms, for every batch entry b and every pair (i, j) of a point of x and a point of y, the quantity
  (rx b i + ry b j) - 2 * sum_k x b i k * y b j k, where rx and ry are the arrays of squared norms, and then takes two
  minima of it from +infinity: over i (the axis of x's points), which gives for each point of y its nearest point of x,
  and over j (the axis of y's points), which gives for each point of x its nearest point of y.  Read one operation at
  a time, the pairwise array at (b, i, j) is the specification's pairwise quantity, the two broadcasts of the squared
  norms reading rx at (b, i) and ry at (b, j) and the contraction reading x at (b, i, k) and y at (b, j, k).  A
  minimum over one axis of an array is the fold of min, from the initial value, over that axis's coordinates, the
  other two coordinates held: min is commutative and associative, so the order of the fold does not matter.
-/
import proofs.«125510_j6820408066663_1_alg».proof.Proof.Gen.ReferenceIdeal.Read
import proofs.«125510_j6820408066663_1_alg».proof.Proof.Spec
import Idealize.ShloMosaic.PureOps.Ideal.Laws
import Idealize.ShloMosaic.PureOps.Reduce
import Idealize.ShloMosaic.Lib.ValueIdx

noncomputable section

namespace Cert.ReferenceIdeal.RefSide

open Idealize.ShloMosaic Idealize.ShloMosaic.ValueIdx Cert.ReferenceIdeal Cert.ReferenceIdeal.Gen Cert.ReferenceIdeal.Read

/-- The pairwise array at (b, i, j) is the specification's pairwise quantity, with the squared norms as they stand. -/
theorem v12_apply (x0 x1 : (⟨S16x2048x3, .f32⟩ : BufTy).Contents (Elt Ideal)) (b : Fin 16) (i j : Fin 2048) :
    val_main_v12 (F := Ideal) x0 x1 (ix3 b i j)
      = Cert.Nearest.sqd (Ideal.ofBits .f32 0x40000000#32) (val_main_v1 (F := Ideal) x0) (val_main_v3 (F := Ideal) x1) x0 x1 b i j := by
  rw [val_main_v12_apply, val_main_v9_apply, val_main_v11_apply, val_main_v7_apply, val_main_v5_apply, val_main_v8_apply,
    val_main_v6_apply, val_main_v10_apply, val_main_cst_1_apply, val_main_v4_apply]
  have e1 : idx_main_v5 (idx_main_v7 (ix3 b i j)) = ix2 b i :=
    funext fun a => Fin.ext (by match a with | ⟨0, _⟩ => rfl | ⟨1, _⟩ => rfl)
  have e2 : idx_main_v6 (idx_main_v8 (ix3 b i j)) = ix2 b j :=
    funext fun a => Fin.ext (by match a with | ⟨0, _⟩ => rfl | ⟨1, _⟩ => rfl)
  have e3 : ∀ k : Fin 3, lidx_main_v4 (ix3 b i j) k = ix3 b i k := fun k =>
    funext fun a => Fin.ext (by match a with | ⟨0, _⟩ => rfl | ⟨1, _⟩ => rfl | ⟨2, _⟩ => rfl)
  have e4 : ∀ k : Fin 3, ridx_main_v4 (ix3 b i j) k = ix3 b j k := fun k =>
    funext fun a => Fin.ext (by match a with | ⟨0, _⟩ => rfl | ⟨1, _⟩ => rfl | ⟨2, _⟩ => rfl)
  rw [e1, e2]
  simp only [e3, e4]
  rfl

/-- The minimum over the points of x (axis 1), at (b, j): the fold of min from +infinity over i of the pairwise
    quantity at (b, i, j). -/
theorem nearX_eq (x0 x1 : (⟨S16x2048x3, .f32⟩ : BufTy).Contents (Elt Ideal)) :
    val_main_v13 (F := Ideal) x0 x1
      = Cert.Nearest.nearX (Ideal.ofBits .f32 0x40000000#32) (Ideal.ofBits .f32 0x7F800000#32) (val_main_v1 (F := Ideal) x0) (val_main_v3 (F := Ideal) x1) x0 x1 := by
  funext p
  obtain ⟨b, j, rfl⟩ : ∃ (b : Fin 16) (j : Fin 2048), p = ix2 b j := ⟨p 0, p 1, eq_ix2 p⟩
  unfold val_main_v13
  refine (Host.reduce_eq_fold_single (FloatOps.minimumf (F := Ideal) (φ := .f32)) (val_main_v12 (F := Ideal) x0 x1)
    (val_main_cst_2 (F := Ideal)) reducesTo_S16x2048x2048_S16x2048_d1 (by decide) h_S_ (ix2 b j)).trans ?_
  unfold Cert.Nearest.nearX
  refine Finset.fold_congr fun i _ => ?_
  refine Eq.trans ?_ (v12_apply x0 x1 b i j)
  exact congrArg (val_main_v12 (F := Ideal) x0 x1)
    (funext fun a => Fin.ext (by match a with | ⟨0, _⟩ => rfl | ⟨1, _⟩ => rfl | ⟨2, _⟩ => rfl))

/-- The minimum over the points of y (axis 2), at (b, i): the fold of min from +infinity over j of the pairwise
    quantity at (b, i, j). -/
theorem nearY_eq (x0 x1 : (⟨S16x2048x3, .f32⟩ : BufTy).Contents (Elt Ideal)) :
    val_main_v14 (F := Ideal) x0 x1
      = Cert.Nearest.nearY (Ideal.ofBits .f32 0x40000000#32) (Ideal.ofBits .f32 0x7F800000#32) (val_main_v1 (F := Ideal) x0) (val_main_v3 (F := Ideal) x1) x0 x1 := by
  funext p
  obtain ⟨b, i, rfl⟩ : ∃ (b : Fin 16) (i : Fin 2048), p = ix2 b i := ⟨p 0, p 1, eq_ix2 p⟩
  unfold val_main_v14
  refine (Host.reduce_eq_fold_single (FloatOps.minimumf (F := Ideal) (φ := .f32)) (val_main_v12 (F := Ideal) x0 x1)
    (val_main_cst_3 (F := Ideal)) reducesTo_S16x2048x2048_S16x2048_d2 (by decide) h_S_ (ix2 b i)).trans ?_
  unfold Cert.Nearest.nearY
  refine Finset.fold_congr fun j _ => ?_
  refine Eq.trans ?_ (v12_apply x0 x1 b i j)
  exact congrArg (val_main_v12 (F := Ideal) x0 x1)
    (funext fun a => Fin.ext (by match a with | ⟨0, _⟩ => rfl | ⟨1, _⟩ => rfl | ⟨2, _⟩ => rfl))

end Cert.ReferenceIdeal.RefSide

end
-- ==== Proof.Pieces.lean ====
/-
  What one run of the kernel body leaves in its two output blocks, as values.

  The body reads, from the block of the transposed `x` ([8, 3, 256]) and of the transposed `y` ([8, 3, 2048]), the three
  coordinate rows (each a [8, 1, ·] slab at offset `d` on the middle axis), forms the 8 × 256 × 2048 array of inner
  products `cross`, and from it and the two norm blocks the array of pairwise quantities. It stores the minimum over the
  last axis whole into the first output block, and into the second output block the minimum of what that block held
  and the minimum over the middle axis. At the first tile of a batch entry the second block is first reset to `+∞`,
  and the value read back is that `+∞`; at every other tile it is what the tile before left (`xo`).

  Both control cases therefore leave the same two payloads, the second over `+∞` or over `xo`. Stated at any float
  instance.
-/
import proofs.«125510_j6820408066663_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl

/-- The inner products of the rows of an `x` block with the rows of a `y` block: the body's accumulated products over
    the three coordinate slabs it loads. -/
def crossBlk (x0 : Vec F S8x3x256 .f32) (x1 : Vec F S8x3x2048 .f32) : FVec F S8x256x2048 .f32 :=
  k0_pay5 (View.ld x0 (Rect.unit ![0, 0, 0] S8x1x256.size inb_S8x3x256_S8x1x256_0_0_0))
    (View.ld x1 (Rect.unit ![0, 0, 0] S8x1x2048.size inb_S8x3x2048_S8x1x2048_0_0_0))
    (View.ld x0 (Rect.unit ![0, 1, 0] S8x1x256.size inb_S8x3x256_S8x1x256_0_1_0))
    (View.ld x1 (Rect.unit ![0, 1, 0] S8x1x2048.size inb_S8x3x2048_S8x1x2048_0_1_0))
    (View.ld x0 (Rect.unit ![0, 2, 0] S8x1x256.size inb_S8x3x256_S8x1x256_0_2_0))
    (View.ld x1 (Rect.unit ![0, 2, 0] S8x1x2048.size inb_S8x3x2048_S8x1x2048_0_2_0))

/-- First tile of a batch entry, first output: the minimum over the last axis. -/
theorem outA4 (c : Dev nD) (i : grid0.Coords) (arg2 : Memref sig .tc .vmem S8x3x256 .f32) (harg2 : arg2.IsWhole) (arg3 : Memref sig .tc .vmem S8x3x2048 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x256 .f32) (harg6 : arg6.IsWhole) (arg7 : Memref sig .tc .vmem S8x2048 .f32) (harg7 : arg7.IsWhole) (hc0 : cond0_0 i)
    (x0 : Vec F S8x3x256 .f32) (x1 : Vec F S8x3x2048 .f32) (x2 : Vec F S8x256 .f32) (x3 : Vec F S8x2048 .f32) :
    out0_A_4 c i arg2 harg2 arg3 harg3 arg4 harg4 arg5 harg5 arg6 harg6 arg7 harg7 hc0 x0 x1 x2 x3 = k0_pay2 (crossBlk x0 x1) x2 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S8x256) zero2]
  simp only [View.readAt_eq_ld, harg2.read_unread, harg3.read_unread, harg4.read_unread, harg5.read_unread, harg7.read_unread,
    View.ld_unit_zero (S := S8x256) zero2, View.ld_unit_zero (S := S8x2048) zero2]
  rfl

/-- First tile of a batch entry, second output: the reset value `+∞` read back, then the minimum with the tile's. -/
theorem outA5 (c : Dev nD) (i : grid0.Coords) (arg2 : Memref sig .tc .vmem S8x3x256 .f32) (harg2 : arg2.IsWhole) (arg3 : Memref sig .tc .vmem S8x3x2048 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x256 .f32) (harg6 : arg6.IsWhole) (arg7 : Memref sig .tc .vmem S8x2048 .f32) (harg7 : arg7.IsWhole) (hc0 : cond0_0 i)
    (x0 : Vec F S8x3x256 .f32) (x1 : Vec F S8x3x2048 .f32) (x2 : Vec F S8x256 .f32) (x3 : Vec F S8x2048 .f32) :
    out0_A_5 c i arg2 harg2 arg3 harg3 arg4 harg4 arg5 harg5 arg6 harg6 arg7 harg7 hc0 x0 x1 x2 x3 = k0_pay3 (crossBlk x0 x1) x2 x3 k0_pay4 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S8x2048) zero2, View.readCov_unit_zero (S := S8x2048) _ zero2]
  simp only [View.readAt_eq_ld, harg2.read_unread, harg3.read_unread, harg4.read_unread, harg5.read_unread, harg7.read_unread,
    View.ld_unit_zero (S := S8x256) zero2, View.ld_unit_zero (S := S8x2048) zero2]
  rfl

/-- A later tile, first output: the same payload. -/
theorem outB4 (c : Dev nD) (i : grid0.Coords) (arg2 : Memref sig .tc .vmem S8x3x256 .f32) (harg2 : arg2.IsWhole) (arg3 : Memref sig .tc .vmem S8x3x2048 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x256 .f32) (harg6 : arg6.IsWhole) (arg7 : Memref sig .tc .vmem S8x2048 .f32) (harg7 : arg7.IsWhole) (hc0 : ¬cond0_0 i)
    (x0 : Vec F S8x3x256 .f32) (x1 : Vec F S8x3x2048 .f32) (x2 : Vec F S8x256 .f32) (x3 : Vec F S8x2048 .f32) (xo5 : Vec F S8x2048 .f32) :
    out0_B_4 c i arg2 harg2 arg3 harg3 arg4 harg4 arg5 harg5 arg6 harg6 arg7 harg7 hc0 x0 x1 x2 x3 xo5 = k0_pay2 (crossBlk x0 x1) x2 x3 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  sl_unfold_words
  rw [View.canon_unit_zero (S := S8x256) zero2]
  simp only [View.readAt_eq_ld, harg2.read_unread, harg3.read_unread, harg4.read_unread, harg5.read_unread, harg7.read_unread,
    View.ld_unit_zero (S := S8x256) zero2, View.ld_unit_zero (S := S8x2048) zero2]
  rfl

/-- A later tile, second output: the minimum of what the tile before left and the tile's. -/
theorem outB5 (c : Dev nD) (i : grid0.Coords) (arg2 : Memref sig .tc .vmem S8x3x256 .f32) (harg2 : arg2.IsWhole) (arg3 : Memref sig .tc .vmem S8x3x2048 .f32) (harg3 : arg3.IsWhole) (arg4 : Memref sig .tc .vmem S8x256 .f32) (harg4 : arg4.IsWhole) (arg5 : Memref sig .tc .vmem S8x2048 .f32) (harg5 : arg5.IsWhole) (arg6 : Memref sig .tc .vmem S8x256 .f32) (harg6 : arg6.IsWhole) (arg7 : Memref sig .tc .vmem S8x2048 .f32) (harg7 : arg7.IsWhole) (hc0 : ¬cond0_0 i)
    (x0 : Vec F S8x3x256 .f32) (x1 : Vec F S8x3x2048 .f32) (x2 : Vec F S8x256 .f32) (x3 : Vec F S8x2048 .f32) (xo5 : Vec F S8x2048 .f32) :
    out0_B_5 c i arg2 harg2 arg3 harg3 arg4 harg4 arg5 harg5 arg6 harg6 arg7 harg7 hc0 x0 x1 x2 x3 xo5 = k0_pay3 (crossBlk x0 x1) x2 x3 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero (S := S8x2048) zero2]
  simp only [View.readAt_eq_ld, harg2.read_unread, harg3.read_unread, harg4.read_unread, harg5.read_unread, harg7.read_unread,
    View.ld_unit_zero (S := S8x256) zero2, View.ld_unit_zero (S := S8x2048) zero2]
  rfl

end Cert.KernelIdeal.Pieces

end
-- ==== Proof.Blocks.lean ====
/-
  The blocks the pipeline hands the body at grid point `t`, read at an index of the arrays the region finds.

  The grid is 2 × 8: point `t` is batch half `t / 8` (eight batch entries) and tile `t % 8` of the 2048 points of `x`
  (256 of them). Window 0 (the transposed `x`, [16, 3, 2048]) has block (t / 8, 0, t % 8) of size [8, 3, 256];
  window 1 (the transposed `y`) block (t / 8, 0, 0) of size [8, 3, 2048]; window 2 (the norms of `x`, [16, 2048])
  block (t / 8, t % 8) of size [8, 256]; window 3 (the norms of `y`) block (t / 8, 0) of size [8, 2048]. A block's
  entry at a local index is the array's entry at block index × block size + local index, axis by axis.

  The arrays themselves are what the host operations before the region wrote: the two transposes (axes 1 and 2
  exchanged) and the two sums of squares over the last axis.
-/
import proofs.«125510_j6820408066663_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## Where each window's block sits -/

theorem index0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem index3 : ∀ t : Fin cfg0.N, win0_3.index t 0 = t.val / 8 ∧ win0_3.index t 1 = 0 :=
  (by decide +kernel : ∀ t : Fin grid0.N, win0_3.index t 0 = t.val / 8 ∧ win0_3.index t 1 = 0)
theorem index4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)
theorem index5 : ∀ t : Fin cfg0.N, win0_5.index t 0 = t.val / 8 ∧ win0_5.index t 1 = 0 :=
  (by decide +kernel : ∀ t : Fin grid0.N, win0_5.index t 0 = t.val / 8 ∧ win0_5.index t 1 = 0)

theorem lt16 (t : Fin cfg0.N) : t.val < 16 := lt_of_lt_of_eq t.isLt (show cfg0.N = 16 from N_0)

/-- The batch entry of local row `b` at point `t`, and the point of `x` of local column `i`. -/
def bat (t : Fin cfg0.N) (b : Fin 8) : Fin 16 := ⟨8 * (t.val / 8) + b.val, by have := lt16 t; have := b.isLt; omega⟩
def pnt (t : Fin cfg0.N) (i : Fin 256) : Fin 2048 := ⟨256 * (t.val % 8) + i.val, by have := i.isLt; omega⟩

/-! ## The blocks at an index -/

theorem iblk0_apply (c : Dev nD) (t : Fin cfg0.N) (b : Fin 8) (d : Fin 3) (i : Fin 256) :
    (iblk m c 0 t : Vec F S8x3x256 .f32) (ix3 b d i) = V m c main_v0 (ix3 (bat t b) d (pnt t i)) := by
  obtain ⟨h0, h1, h2⟩ := index0 t
  unfold iblk
  rw [View.read_apply]
  show V m c main_v0 _ = V m c main_v0 _
  congr 1
  funext a
  apply Fin.ext
  match a with
  | ⟨0, _⟩ => show win0_0.index t 0 * 8 + 1 * b.val = 8 * (t.val / 8) + b.val; rw [h0]; omega
  | ⟨1, _⟩ => show win0_0.index t 1 * 3 + 1 * d.val = d.val; rw [h1]; omega
  | ⟨2, _⟩ => show win0_0.index t 2 * 256 + 1 * i.val = 256 * (t.val % 8) + i.val; rw [h2]; omega

theorem iblk1_apply (c : Dev nD) (t : Fin cfg0.N) (b : Fin 8) (d : Fin 3) (j : Fin 2048) :
    (iblk m c 1 t : Vec F S8x3x2048 .f32) (ix3 b d j) = V m c main_v1 (ix3 (bat t b) d j) := by
  obtain ⟨h0, h1, h2⟩ := index1 t
  unfold iblk
  rw [View.read_apply]
  show V m c main_v1 _ = V m c main_v1 _
  congr 1
  funext a
  apply Fin.ext
  match a with
  | ⟨0, _⟩ => show win0_1.index t 0 * 8 + 1 * b.val = 8 * (t.val / 8) + b.val; rw [h0]; omega
  | ⟨1, _⟩ => show win0_1.index t 1 * 3 + 1 * d.val = d.val; rw [h1]; omega
  | ⟨2, _⟩ => show win0_1.index t 2 * 2048 + 1 * j.val = j.val; rw [h2]; omega

theorem iblk2_apply (c : Dev nD) (t : Fin cfg0.N) (b : Fin 8) (i : Fin 256) :
    (iblk m c 2 t : Vec F S8x256 .f32) (ix2 b i) = V m c main_v3 (ix2 (bat t b) (pnt t i)) := by
  obtain ⟨h0, h1⟩ := index2 t
  unfold iblk
  rw [View.read_apply]
  show V m c main_v3 _ = V m c main_v3 _
  congr 1
  funext a
  apply Fin.ext
  match a with
  | ⟨0, _⟩ => show win0_2.index t 0 * 8 + 1 * b.val = 8 * (t.val / 8) + b.val; rw [h0]; omega
  | ⟨1, _⟩ => show win0_2.index t 1 * 256 + 1 * i.val = 256 * (t.val % 8) + i.val; rw [h1]; omega

theorem iblk3_apply (c : Dev nD) (t : Fin cfg0.N) (b : Fin 8) (j : Fin 2048) :
    (iblk m c 3 t : Vec F S8x2048 .f32) (ix2 b j) = V m c main_v5 (ix2 (bat t b) j) := by
  obtain ⟨h0, h1⟩ := index3 t
  unfold iblk
  rw [View.read_apply]
  show V m c main_v5 _ = V m c main_v5 _
  congr 1
  funext a
  apply Fin.ext
  match a with
  | ⟨0, _⟩ => show win0_3.index t 0 * 8 + 1 * b.val = 8 * (t.val / 8) + b.val; rw [h0]; omega
  | ⟨1, _⟩ => show win0_3.index t 1 * 2048 + 1 * j.val = j.val; rw [h1]; omega

/-! ## The arrays the region finds -/

theorem V_v0 (c : Dev nD) : (V m c main_v0 : S16x3x2048.Idx → Elt F .f32)
    = transpose S16x3x2048 [0, 2, 1] (m ((c : Thread nD τ).loc main_arg0)) transposes_S16x2048x3_S16x3x2048_0_2_1 := by
  show StableHlo.after hostOps0 (fun b => m (c, b)) (Proc.devRef .tc main_v0) = _
  after_results

theorem V_v1 (c : Dev nD) : (V m c main_v1 : S16x3x2048.Idx → Elt F .f32)
    = transpose S16x3x2048 [0, 2, 1] (m ((c : Thread nD τ).loc main_arg1)) transposes_S16x2048x3_S16x3x2048_0_2_1 := by
  show StableHlo.after hostOps0 (fun b => m (c, b)) (Proc.devRef .tc main_v1) = _
  after_results

theorem V_v3 (c : Dev nD) : (V m c main_v3 : S16x2048.Idx → Elt F .f32)
    = Host.reduceAdd (mulf (m ((c : Thread nD τ).loc main_arg0)) (m ((c : Thread nD τ).loc main_arg0))) (constant (F := F) S_ .f32 0x00000000#32)
        reducesTo_S16x2048x3_S16x2048_d2 h_S_ := by
  show StableHlo.after hostOps0 (fun b => m (c, b)) (Proc.devRef .tc main_v3) = _
  after_results

theorem V_v5 (c : Dev nD) : (V m c main_v5 : S16x2048.Idx → Elt F .f32)
    = Host.reduceAdd (mulf (m ((c : Thread nD τ).loc main_arg1)) (m ((c : Thread nD τ).loc main_arg1))) (constant (F := F) S_ .f32 0x00000000#32)
        reducesTo_S16x2048x3_S16x2048_d2 h_S_ := by
  show StableHlo.after hostOps0 (fun b => m (c, b)) (Proc.devRef .tc main_v5) = _
  after_results

/-- A transposed cloud at (batch, coordinate, point) is the cloud at (batch, point, coordinate). -/
theorem transposed_apply (x : S16x2048x3.Idx → Elt F .f32) (B : Fin 16) (d : Fin 3) (n : Fin 2048) :
    transpose S16x3x2048 [0, 2, 1] x transposes_S16x2048x3_S16x3x2048_0_2_1 (ix3 B d n) = x (ix3 B n d) :=
  transpose_apply _ x _ (ix3 B d n) (ix3 B n d) fun a => by
    match a with
    | ⟨0, _⟩ => rfl
    | ⟨1, _⟩ => rfl
    | ⟨2, _⟩ => rfl

end Cert.KernelIdeal.Blocks

end
-- ==== Proof.PayIdx.lean ====
/-
  The idealized kernel's payloads read at an index.

  The kernel works on a tile of 8 batch entries, 256 points of the first cloud and all 2048 points of the second.
  Its pure values are, at a tile index (b, i, j):

    * the running inner product: from zero, the three coordinate planes' products added in turn,
      ((0 + x0 b i * y0 b j) + x1 b i * y1 b j) + x2 b i * y2 b j, each plane a [8, 1, 256] or [8, 1, 2048] load whose
      unit axis is cast away, a unit axis put back on the other side, and the result broadcast to [8, 256, 2048];
    * the pairwise quantity (r b i + q b j) - 2 * c b i j, the two per-point scalars broadcast along the other cloud's
      axis the same way;
    * its minimum over j (from +infinity), and its minimum over i combined by min with the running per-j value;
    * the constant +infinity that starts the running per-j value.

  A shape cast keeps the row-major position and a broadcast reads the operand at 0 on its unit axes, so each layout
  composite reads its operand at one index named by the coordinates; a one-axis minimum reduction is the fold of min
  over that axis's coordinates.
-/
import proofs.«125510_j6820408066663_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayIdx

open Idealize.ShloMosaic Idealize.ShloMosaic.ValueIdx Cert.KernelIdeal Cert.KernelIdeal.Gen

/-! ## The layout composites at an index -/

section Layout
variable {α : Type}

/-- A [8, 1, 256] vector with its unit axis cast away, at (b, i), is the vector at (b, 0, i). -/
theorem drop256 (v : S8x1x256.Idx → α) (h : S8x1x256.ShapeCasts S8x256) (b : Fin 8) (i : Fin 256) :
    shapeCast S8x256 v h (ix2 b i) = v (ix3 b 0 i) :=
  shapeCast_apply v h (ix2 b i) (ix3 b 0 i) (by
    rw [Shape.rowMajor_val_three, Shape.rowMajor_val_two]
    show ((b.val * 1 + 0) * 256 + i.val) = b.val * 256 + i.val
    omega)

/-- A [8, 1, 2048] vector with its unit axis cast away, at (b, j), is the vector at (b, 0, j). -/
theorem drop2048 (v : S8x1x2048.Idx → α) (h : S8x1x2048.ShapeCasts S8x2048) (b : Fin 8) (j : Fin 2048) :
    shapeCast S8x2048 v h (ix2 b j) = v (ix3 b 0 j) :=
  shapeCast_apply v h (ix2 b j) (ix3 b 0 j) (by
    rw [Shape.rowMajor_val_three, Shape.rowMajor_val_two]
    show ((b.val * 1 + 0) * 2048 + j.val) = b.val * 2048 + j.val
    omega)

/-- A [8, 256] vector cast to [8, 256, 1] and broadcast to [8, 256, 2048], at (b, i, j), is the vector at (b, i). -/
theorem col (w : S8x256.Idx → α) (h1 : S8x256.ShapeCasts S8x256x1) (h2 : S8x256x1.Broadcasts S8x256x2048)
    (b : Fin 8) (i : Fin 256) (j : Fin 2048) :
    broadcastTo S8x256x2048 (shapeCast S8x256x1 w h1) h2 (ix3 b i j) = w (ix2 b i) := by
  refine (broadcastTo_apply (shapeCast S8x256x1 w h1) h2 (ix3 b i j) (ix3 b i 0) (fun a =>
    match a with | ⟨0, _⟩ => rfl | ⟨1, _⟩ => rfl | ⟨2, _⟩ => rfl)).trans ?_
  exact shapeCast_apply w h1 (ix3 b i 0) (ix2 b i) (by
    rw [Shape.rowMajor_val_two, Shape.rowMajor_val_three]
    show b.val * 256 + i.val = ((b.val * 256 + i.val) * 1 + 0)
    omega)

/-- A [8, 2048] vector cast to [8, 1, 2048] and broadcast to [8, 256, 2048], at (b, i, j), is the vector at (b, j). -/
theorem row (w : S8x2048.Idx → α) (h1 : S8x2048.ShapeCasts S8x1x2048) (h2 : S8x1x2048.Broadcasts S8x256x2048)
    (b : Fin 8) (i : Fin 256) (j : Fin 2048) :
    broadcastTo S8x256x2048 (shapeCast S8x1x2048 w h1) h2 (ix3 b i j) = w (ix2 b j) := by
  refine (broadcastTo_apply (shapeCast S8x1x2048 w h1) h2 (ix3 b i j) (ix3 b 0 j) (fun a =>
    match a with | ⟨0, _⟩ => rfl | ⟨1, _⟩ => rfl | ⟨2, _⟩ => rfl)).trans ?_
  exact shapeCast_apply w h1 (ix3 b 0 j) (ix2 b j) (by
    rw [Shape.rowMajor_val_two, Shape.rowMajor_val_three]
    show b.val * 2048 + j.val = ((b.val * 1 + 0) * 2048 + j.val)
    omega)

/-- The first cloud's plane: a [8, 1, 256] load read at (b, i, j) of the tile is the load at (b, 0, i). -/
theorem loadCol (v : S8x1x256.Idx → α) (h0 : S8x1x256.ShapeCasts S8x256) (h1 : S8x256.ShapeCasts S8x256x1)
    (h2 : S8x256x1.Broadcasts S8x256x2048) (b : Fin 8) (i : Fin 256) (j : Fin 2048) :
    broadcastTo S8x256x2048 (shapeCast S8x256x1 (shapeCast S8x256 v h0) h1) h2 (ix3 b i j) = v (ix3 b 0 i) :=
  (col (shapeCast S8x256 v h0) h1 h2 b i j).trans (drop256 v h0 b i)

/-- The second cloud's plane: a [8, 1, 2048] load read at (b, i, j) of the tile is the load at (b, 0, j). -/
theorem loadRow (v : S8x1x2048.Idx → α) (h0 : S8x1x2048.ShapeCasts S8x2048) (h1 : S8x2048.ShapeCasts S8x1x2048)
    (h2 : S8x1x2048.Broadcasts S8x256x2048) (b : Fin 8) (i : Fin 256) (j : Fin 2048) :
    broadcastTo S8x256x2048 (shapeCast S8x1x2048 (shapeCast S8x2048 v h0) h1) h2 (ix3 b i j) = v (ix3 b 0 j) :=
  (row (shapeCast S8x2048 v h0) h1 h2 b i j).trans (drop2048 v h0 b j)

/-- A per-point scalar of the first cloud (through a shape cast to its own shape), at (b, i, j), is the scalar at (b, i). -/
theorem selfCol (w : S8x256.Idx → α) (h0 : S8x256.ShapeCasts S8x256) (h1 : S8x256.ShapeCasts S8x256x1)
    (h2 : S8x256x1.Broadcasts S8x256x2048) (b : Fin 8) (i : Fin 256) (j : Fin 2048) :
    broadcastTo S8x256x2048 (shapeCast S8x256x1 (shapeCast S8x256 w h0) h1) h2 (ix3 b i j) = w (ix2 b i) :=
  (col (shapeCast S8x256 w h0) h1 h2 b i j).trans (congrFun (shapeCast_self w h0) (ix2 b i))

/-- A per-point scalar of the second cloud (through a shape cast to its own shape), at (b, i, j), is the scalar at (b, j). -/
theorem selfRow (w : S8x2048.Idx → α) (h0 : S8x2048.ShapeCasts S8x2048) (h1 : S8x2048.ShapeCasts S8x1x2048)
    (h2 : S8x1x2048.Broadcasts S8x256x2048) (b : Fin 8) (i : Fin 256) (j : Fin 2048) :
    broadcastTo S8x256x2048 (shapeCast S8x1x2048 (shapeCast S8x2048 w h0) h1) h2 (ix3 b i j) = w (ix2 b j) :=
  (row (shapeCast S8x2048 w h0) h1 h2 b i j).trans (congrFun (shapeCast_self w h0) (ix2 b j))

end Layout

/-! ## A one-axis minimum reduction at an index -/

/-- A float minimum reduction over one axis, read at the extended reals: the fold of min from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over the last axis of the tile: the source index over (b, i) with coordinate j inserted is (b, i, j). -/
theorem lift_last (h : S8x256x2048.Reduces [2] S8x256) (b : Fin 8) (i : Fin 256) (j : Fin 2048) :
    h.lift (ix2 b i) j = ix3 b i j := by
  funext c
  apply Fin.ext
  match c with
  | ⟨0, _⟩ => rfl
  | ⟨1, _⟩ => rfl
  | ⟨2, _⟩ => rfl

/-- Over the middle axis of the tile: the source index over (b, j) with coordinate i inserted is (b, i, j). -/
theorem lift_mid (h : S8x256x2048.Reduces [1] S8x2048) (b : Fin 8) (j : Fin 2048) (i : Fin 256) :
    h.lift (ix2 b j) i = ix3 b i j := by
  funext c
  apply Fin.ext
  match c with
  | ⟨0, _⟩ => rfl
  | ⟨1, _⟩ => rfl
  | ⟨2, _⟩ => rfl

/-! ## The payloads at an index -/

/-- The value that starts the running per-j minimum: +infinity everywhere. -/
theorem pay4_apply (p : S8x2048.Idx) : k0_pay4 (F := Ideal) p = Ideal.ofBits .f32 0x7F800000#32 := rfl

variable [Cert.KernelIdeal.Facts]

/-- The running inner product at (b, i, j): from zero, the three planes' products added in turn. -/
theorem pay5_apply (v4 : Vec Ideal S8x1x256 .f32) (v6 : Vec Ideal S8x1x2048 .f32) (v14 : Vec Ideal S8x1x256 .f32)
    (v16 : Vec Ideal S8x1x2048 .f32) (v24 : Vec Ideal S8x1x256 .f32) (v26 : Vec Ideal S8x1x2048 .f32)
    (b : Fin 8) (i : Fin 256) (j : Fin 2048) :
    k0_pay5 (F := Ideal) v4 v6 v14 v16 v24 v26 (ix3 b i j)
      = ((Ideal.ofBits .f32 0x00000000#32 + v4 (ix3 b 0 i) * v6 (ix3 b 0 j)) + v14 (ix3 b 0 i) * v16 (ix3 b 0 j))
          + v24 (ix3 b 0 i) * v26 (ix3 b 0 j) := by
  unfold k0_pay5
  simp only [addf_apply, mulf_apply, broadcast_apply, loadCol, loadRow]
  rfl

/-- The pairwise quantity at (b, i, j). -/
theorem pay1_apply (v33 : FVec Ideal S8x256x2048 .f32) (v34 : Vec Ideal S8x256 .f32) (v37 : Vec Ideal S8x2048 .f32)
    (b : Fin 8) (i : Fin 256) (j : Fin 2048) :
    k0_pay1 (F := Ideal) v33 v34 v37 (ix3 b i j)
      = (v34 (ix2 b i) + v37 (ix2 b j)) - Ideal.ofBits .f32 0x40000000#32 * v33 (ix3 b i j) := by
  unfold k0_pay1
  simp only [addf_apply, subf_apply, mulf_apply, broadcast_apply, selfCol, selfRow]
  rfl

/-- For each point i of the first cloud's tile: the minimum over j of the pairwise quantity, from +infinity. -/
theorem pay2_apply (v33 : FVec Ideal S8x256x2048 .f32) (v34 : Vec Ideal S8x256 .f32) (v37 : Vec Ideal S8x2048 .f32)
    (b : Fin 8) (i : Fin 256) :
    k0_pay2 (F := Ideal) v33 v34 v37 (ix2 b i)
      = Finset.univ.fold min (Ideal.ofBits .f32 0x7F800000#32)
          (fun j : Fin 2048 => k0_pay1 (F := Ideal) v33 v34 v37 (ix3 b i j)) := by
  unfold k0_pay2
  refine (multiReduction_minimumf_single (k0_pay1 (F := Ideal) v33 v34 v37) 0x7F800000#32
    reduces_S8x256x2048_S8x256 _ _ (ix2 b i)).trans ?_
  refine congrArg (Finset.univ.fold min (Ideal.ofBits .f32 0x7F800000#32)) (funext fun j : Fin 2048 => ?_)
  exact congrArg (k0_pay1 (F := Ideal) v33 v34 v37) (lift_last reduces_S8x256x2048_S8x256 b i j)

/-- For each point j of the second cloud: the running value combined by min with the minimum over the tile's i of the
    pairwise quantity, from +infinity. -/
theorem pay3_apply (v33 : FVec Ideal S8x256x2048 .f32) (v34 : Vec Ideal S8x256 .f32) (v37 : Vec Ideal S8x2048 .f32)
    (v48 : Vec Ideal S8x2048 .f32) (b : Fin 8) (j : Fin 2048) :
    k0_pay3 (F := Ideal) v33 v34 v37 v48 (ix2 b j)
      = min (v48 (ix2 b j)) (Finset.univ.fold min (Ideal.ofBits .f32 0x7F800000#32)
          (fun i : Fin 256 => k0_pay1 (F := Ideal) v33 v34 v37 (ix3 b i j))) := by
  unfold k0_pay3
  refine (minimumf_apply _ _ (ix2 b j)).trans ?_
  refine congrArg₂ min (congrFun (shapeCast_self v48 shapeCasts_S8x2048_S8x2048) (ix2 b j)) ?_
  refine (multiReduction_minimumf_single (k0_pay1 (F := Ideal) v33 v34 v37) 0x7F800000#32
    reduces_S8x256x2048_S8x2048 _ _ (ix2 b j)).trans ?_
  refine congrArg (Finset.univ.fold min (Ideal.ofBits .f32 0x7F800000#32)) (funext fun i : Fin 256 => ?_)
  exact congrArg (k0_pay1 (F := Ideal) v33 v34 v37) (lift_mid reduces_S8x256x2048_S8x2048 b j i)

end Cert.KernelIdeal.PayIdx

end
-- ==== Proof.Outs.lean ====
/-
  What the two output blocks hold after every grid point, at the extended reals.

  Grid point `t` works on batch entries `8 (t / 8) + b` (`b < 8`) and on the points `256 (t % 8) + i` (`i < 256`) of
  `x`, against all 2048 points of `y`. Its blocks are the arrays read at those indices, so the body's 8 × 256 × 2048
  array of pairwise quantities is the specification's `sqd` there. Hence:

  * the first output block after point `t` is, row by row, the minimum over all `j` — already final (`nearY`);
  * the second output block is a running minimum: after point `t` its entry (b, j) is the minimum, from `+∞`, of
    `sqd` over the points of `x` below `256 (t % 8 + 1)` — reset at the first tile of each batch half, and combined with
    the tile's own minimum at every tile. This is proved by induction on the point, through the order fact of the
    specification (a minimum taken tile by tile).
-/
import proofs.«125510_j6820408066663_1_alg».proof.Proof.Spec
import proofs.«125510_j6820408066663_1_alg».proof.Proof.Pieces
import proofs.«125510_j6820408066663_1_alg».proof.Proof.Blocks
import proofs.«125510_j6820408066663_1_alg».proof.Proof.PayIdx
import Idealize.ShloMosaic.PureOps.Ideal.Laws

noncomputable section

open Idealize.ShloMosaic Idealize.ShloMosaic.TcCoe Idealize.SL.Sem Idealize.ShloMosaic.ValueIdx

namespace Cert.KernelIdeal.Outs

open Cert.KernelIdeal Cert.KernelIdeal.Gen Cert.KernelIdeal.Pieces Cert.KernelIdeal.Blocks Cert.KernelIdeal.PayIdx Cert.Nearest

/-- The two literals of the computation, never evaluated: the factor of the inner product and the minimum's start. -/
abbrev two : EReal := Ideal.ofBits .f32 0x40000000#32
abbrev top : EReal := Ideal.ofBits .f32 0x7F800000#32

/-! ## One run of the body, over any blocks -/

section Body

variable (x0 : Vec Ideal S8x3x256 .f32) (x1 : Vec Ideal S8x3x2048 .f32) (x2 : Vec Ideal S8x256 .f32) (x3 : Vec Ideal S8x2048 .f32)

/-- A coordinate slab of an `x` block, [8, 1, 256] at offset `d` on the middle axis, read at (b, 0, i). -/
theorem slabX (d : ℕ) (hd : d < 3) (h : ∀ a, (![0, d, 0] : Fin 3 → ℕ) a + S8x1x256.size a ≤ S8x3x256.size a) (b : Fin 8) (i : Fin 256) :
    View.ld x0 (Rect.unit ![0, d, 0] S8x1x256.size h) (ix3 b 0 i) = x0 (ix3 b ⟨d, hd⟩ i) :=
  congrArg x0 (funext fun a => Fin.ext (by
    match a with
    | ⟨0, _⟩ => show 0 + 1 * b.val = b.val; omega
    | ⟨1, _⟩ => show d + 1 * 0 = d; omega
    | ⟨2, _⟩ => show 0 + 1 * i.val = i.val; omega))

/-- The same for a `y` block, [8, 1, 2048]. -/
theorem slabY (d : ℕ) (hd : d < 3) (h : ∀ a, (![0, d, 0] : Fin 3 → ℕ) a + S8x1x2048.size a ≤ S8x3x2048.size a) (b : Fin 8) (j : Fin 2048) :
    View.ld x1 (Rect.unit ![0, d, 0] S8x1x2048.size h) (ix3 b 0 j) = x1 (ix3 b ⟨d, hd⟩ j) :=
  congrArg x1 (funext fun a => Fin.ext (by
    match a with
    | ⟨0, _⟩ => show 0 + 1 * b.val = b.val; omega
    | ⟨1, _⟩ => show d + 1 * 0 = d; omega
    | ⟨2, _⟩ => show 0 + 1 * j.val = j.val; omega))

/-- The pairwise quantity as the body forms it from its four blocks, at local indices. -/
def lsq (b : Fin 8) (i : Fin 256) (j : Fin 2048) : EReal :=
  (x2 (ix2 b i) + x3 (ix2 b j))
    - two * (((Ideal.ofBits .f32 0x00000000#32 + x0 (ix3 b 0 i) * x1 (ix3 b 0 j)) + x0 (ix3 b 1 i) * x1 (ix3 b 1 j))
        + x0 (ix3 b 2 i) * x1 (ix3 b 2 j))

theorem sq_apply (b : Fin 8) (i : Fin 256) (j : Fin 2048) :
    k0_pay1 (F := Ideal) (crossBlk (F := Ideal) x0 x1) x2 x3 (ix3 b i j) = lsq x0 x1 x2 x3 b i j := by
  refine (pay1_apply (crossBlk (F := Ideal) x0 x1) x2 x3 b i j).trans ?_
  unfold crossBlk lsq
  refine congrArg (fun z => (x2 (ix2 b i) + x3 (ix2 b j)) - two * z) ?_
  refine (pay5_apply _ _ _ _ _ _ b i j).trans ?_
  rw [slabX x0 0 (by omega) _ b i, slabX x0 1 (by omega) _ b i, slabX x0 2 (by omega) _ b i,
    slabY x1 0 (by omega) _ b j, slabY x1 1 (by omega) _ b j, slabY x1 2 (by omega) _ b j]
  rfl

variable (X Y : Pts.Idx → EReal) (rx ry : Sc.Idx → EReal) (B : Fin 16) (P : Fin 256 → Fin 2048) (b : Fin 8)
  (h0 : ∀ (d : Fin 3) (i : Fin 256), x0 (ix3 b d i) = X (ix3 B (P i) d))
  (h1 : ∀ (d : Fin 3) (j : Fin 2048), x1 (ix3 b d j) = Y (ix3 B j d))
  (h2 : ∀ i : Fin 256, x2 (ix2 b i) = rx (ix2 B (P i)))
  (h3 : ∀ j : Fin 2048, x3 (ix2 b j) = ry (ix2 B j))

include h0 h1 h2 h3 in
/-- When the blocks are the arrays read at batch entry `B` and at the points `P i`, the body's quantity is the
    specification's: the three products added to zero in order are the sum over the three coordinates. -/
theorem lsq_eq (i : Fin 256) (j : Fin 2048) : lsq x0 x1 x2 x3 b i j = sqd two rx ry X Y B (P i) j := by
  unfold lsq sqd cross
  rw [h0, h0, h0, h1, h1, h1, h2, h3, Ideal.ofBits_zero_f32, zero_add, Fin.sum_univ_three]

include h0 h1 h2 h3 in
/-- The first output block, at (b, i): the minimum over all points of `y`. -/
theorem row_min (i : Fin 256) :
    k0_pay2 (F := Ideal) (crossBlk (F := Ideal) x0 x1) x2 x3 (ix2 b i)
      = Finset.univ.fold min top fun j : Fin 2048 => sqd two rx ry X Y B (P i) j := by
  refine (pay2_apply (crossBlk (F := Ideal) x0 x1) x2 x3 b i).trans ?_
  exact Finset.fold_congr fun j _ => (sq_apply x0 x1 x2 x3 b i j).trans (lsq_eq x0 x1 x2 x3 X Y rx ry B P b h0 h1 h2 h3 i j)

include h0 h1 h2 h3 in
/-- The second output block, at (b, j): if it held the minimum over the points of `x` below `256 n`, and this tile's
    points are `256 n + i`, it now holds the minimum below `256 (n + 1)`. -/
theorem col_min (xo : Vec Ideal S8x2048 .f32) (n : ℕ) (hn : n < 8) (hP : ∀ i : Fin 256, (P i).val = 256 * n + i.val) (j : Fin 2048)
    (hacc : IsMinBelow top (fun i => sqd two rx ry X Y B i j) (256 * n) (xo (ix2 b j))) :
    IsMinBelow top (fun i => sqd two rx ry X Y B i j) (256 * (n + 1))
      (k0_pay3 (F := Ideal) (crossBlk (F := Ideal) x0 x1) x2 x3 xo (ix2 b j)) := by
  have e : k0_pay3 (F := Ideal) (crossBlk (F := Ideal) x0 x1) x2 x3 xo (ix2 b j)
      = min (xo (ix2 b j)) (Finset.univ.fold min top fun k : Fin 256 =>
          (fun i => sqd two rx ry X Y B i j) ⟨256 * n + k.val, by have := k.isLt; omega⟩) := by
    refine (pay3_apply (crossBlk (F := Ideal) x0 x1) x2 x3 xo b j).trans ?_
    refine congrArg (min (xo (ix2 b j))) (Finset.fold_congr fun k _ => ?_)
    refine ((sq_apply x0 x1 x2 x3 b k j).trans (lsq_eq x0 x1 x2 x3 X Y rx ry B P b h0 h1 h2 h3 k j)).trans ?_
    exact congrArg (fun i => sqd two rx ry X Y B i j) (Fin.ext (hP k))
  rw [e]
  exact hacc.tile hn

end Body

/-! ## The blocks of a grid point are the arrays read there -/

variable (m : (ℓ : Loc nD τ sig) → Buf (Elt Ideal) ℓ)

/-- The two clouds and their squared norms, as the region finds them. -/
abbrev X (c : Dev nD) : Pts.Idx → EReal := m ((c : Thread nD τ).loc main_arg0)
abbrev Y (c : Dev nD) : Pts.Idx → EReal := m ((c : Thread nD τ).loc main_arg1)
abbrev RX (c : Dev nD) : Sc.Idx → EReal := V m c main_v3
abbrev RY (c : Dev nD) : Sc.Idx → EReal := V m c main_v5

/-- The four input blocks at a point, at their literal types. -/
abbrev xb (c : Dev nD) (t : Fin cfg0.N) : Vec Ideal S8x3x256 .f32 := iblk m c 0 t
abbrev yb (c : Dev nD) (t : Fin cfg0.N) : Vec Ideal S8x3x2048 .f32 := iblk m c 1 t
abbrev rxb (c : Dev nD) (t : Fin cfg0.N) : Vec Ideal S8x256 .f32 := iblk m c 2 t
abbrev ryb (c : Dev nD) (t : Fin cfg0.N) : Vec Ideal S8x2048 .f32 := iblk m c 3 t

theorem xb_apply (c : Dev nD) (t : Fin cfg0.N) (b : Fin 8) (d : Fin 3) (i : Fin 256) :
    xb m c t (ix3 b d i) = X m c (ix3 (bat t b) (pnt t i) d) :=
  (iblk0_apply m c t b d i).trans ((congrFun (V_v0 m c) _).trans (transposed_apply _ _ _ _))

theorem yb_apply (c : Dev nD) (t : Fin cfg0.N) (b : Fin 8) (d : Fin 3) (j : Fin 2048) :
    yb m c t (ix3 b d j) = Y m c (ix3 (bat t b) j d) :=
  (iblk1_apply m c t b d j).trans ((congrFun (V_v1 m c) _).trans (transposed_apply _ _ _ _))

theorem rxb_apply (c : Dev nD) (t : Fin cfg0.N) (b : Fin 8) (i : Fin 256) :
    rxb m c t (ix2 b i) = RX m c (ix2 (bat t b) (pnt t i)) := iblk2_apply m c t b i

theorem ryb_apply (c : Dev nD) (t : Fin cfg0.N) (b : Fin 8) (j : Fin 2048) :
    ryb m c t (ix2 b j) = RY m c (ix2 (bat t b) j) := iblk3_apply m c t b j

/-! ## The outputs after each point -/

/-- The first output block after point `t`: the body's row minima of that point's blocks, in either control case. -/
theorem out1_eq (c : Dev nD) (t : Fin cfg0.N) :
    (outsAt0 m c t.val t.isLt).1 = k0_pay2 (F := Ideal) (crossBlk (F := Ideal) (xb m c t) (yb m c t)) (rxb m c t) (ryb m c t) := by
  by_cases h0 : t.val % 8 = 0
  · rw [outsAt0_A m c t h0]
    dsimp only
    exact outA4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) ((hcond0_0 t).mpr h0) (iblk m c 0 t) (iblk m c 1 t) (iblk m c 2 t) (iblk m c 3 t)
  · rw [outsAt0_B m c t h0]
    dsimp only
    exact outB4 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2

/-- The second output block after a first tile: over the reset value. -/
theorem out2_first (c : Dev nD) (t : Fin cfg0.N) (h0 : t.val % 8 = 0) :
    (outsAt0 m c t.val t.isLt).2
      = k0_pay3 (F := Ideal) (crossBlk (F := Ideal) (xb m c t) (yb m c t)) (rxb m c t) (ryb m c t) (k0_pay4 (F := Ideal)) := by
  rw [outsAt0_A m c t h0]
  dsimp only
  exact outA5 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) ((hcond0_0 t).mpr h0) (iblk m c 0 t) (iblk m c 1 t) (iblk m c 2 t) (iblk m c 3 t)

/-- The second output block after a later tile: over what the tile before left. -/
theorem out2_later (c : Dev nD) (t : Fin cfg0.N) (h0 : ¬t.val % 8 = 0) :
    (outsAt0 m c t.val t.isLt).2
      = k0_pay3 (F := Ideal) (crossBlk (F := Ideal) (xb m c t) (yb m c t)) (rxb m c t) (ryb m c t)
          (outsAt0 m c (t.val - 1) (Nat.lt_of_le_of_lt (Nat.sub_le _ _) t.isLt)).2 := by
  rw [outsAt0_B m c t h0]
  dsimp only
  exact outB5 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (fun h => h0 ((hcond0_0 t).mp h)) (iblk m c 0 t) (iblk m c 1 t) (iblk m c 2 t) (iblk m c 3 t)
    (outsAt0 m c (t.val - 1) (Nat.lt_of_le_of_lt (Nat.sub_le _ _) t.isLt)).2

/-- The first output block after point `t`, at (b, i): `nearY` at that batch entry and point. -/
theorem out1_apply (c : Dev nD) (t : Fin cfg0.N) (b : Fin 8) (i : Fin 256) :
    (outsAt0 m c t.val t.isLt).1 (ix2 b i)
      = nearY two top (RX m c) (RY m c) (X m c) (Y m c) (ix2 (bat t b) (pnt t i)) :=
  (congrFun (out1_eq m c t) (ix2 b i)).trans
    (row_min (xb m c t) (yb m c t) (rxb m c t) (ryb m c t) (X m c) (Y m c) (RX m c) (RY m c) (bat t b) (pnt t) b
      (fun d i => xb_apply m c t b d i) (fun d j => yb_apply m c t b d j) (fun i => rxb_apply m c t b i)
      (fun j => ryb_apply m c t b j) i)

/-- THE RUNNING MINIMUM. After point `n` the second output block, at (b, j), is the minimum of the pairwise quantity
    over the points of `x` below `256 (n % 8 + 1)`, at the batch entry of row `b`. -/
theorem out2_min (c : Dev nD) : ∀ (n : ℕ) (h : n < cfg0.N) (b : Fin 8) (j : Fin 2048),
    IsMinBelow top (fun i => sqd two (RX m c) (RY m c) (X m c) (Y m c) (bat ⟨n, h⟩ b) i j) (256 * (n % 8 + 1))
      ((outsAt0 m c n h).2 (ix2 b j)) := by
  intro n
  induction n with
  | zero =>
    intro h b j
    have k := congrFun (out2_first m c ⟨0, h⟩ rfl) (ix2 b j)
    rw [show (outsAt0 m c 0 h).2 (ix2 b j) = _ from k]
    exact col_min (xb m c ⟨0, h⟩) (yb m c ⟨0, h⟩) (rxb m c ⟨0, h⟩) (ryb m c ⟨0, h⟩) (X m c) (Y m c) (RX m c) (RY m c)
      (bat ⟨0, h⟩ b) (pnt ⟨0, h⟩) b (fun d i => xb_apply m c ⟨0, h⟩ b d i) (fun d j => yb_apply m c ⟨0, h⟩ b d j)
      (fun i => rxb_apply m c ⟨0, h⟩ b i) (fun j => ryb_apply m c ⟨0, h⟩ b j) (k0_pay4 (F := Ideal)) 0 (by omega)
      (fun i => rfl) j (by rw [pay4_apply]; exact isMinBelow_zero top _)
  | succ n ih =>
    intro h b j
    have hN : n + 1 < 16 := lt_of_lt_of_eq h (show cfg0.N = 16 from N_0)
    by_cases h0 : (n + 1) % 8 = 0
    · have k := congrFun (out2_first m c ⟨n + 1, h⟩ h0) (ix2 b j)
      rw [show (outsAt0 m c (n + 1) h).2 (ix2 b j) = _ from k, h0]
      exact col_min (xb m c ⟨n + 1, h⟩) (yb m c ⟨n + 1, h⟩) (rxb m c ⟨n + 1, h⟩) (ryb m c ⟨n + 1, h⟩) (X m c) (Y m c) (RX m c) (RY m c)
        (bat ⟨n + 1, h⟩ b) (pnt ⟨n + 1, h⟩) b (fun d i => xb_apply m c ⟨n + 1, h⟩ b d i) (fun d j => yb_apply m c ⟨n + 1, h⟩ b d j)
        (fun i => rxb_apply m c ⟨n + 1, h⟩ b i) (fun j => ryb_apply m c ⟨n + 1, h⟩ b j) (k0_pay4 (F := Ideal)) 0 (by omega)
        (fun i => by show 256 * ((n + 1) % 8) + i.val = 256 * 0 + i.val; rw [h0]) j
        (by rw [pay4_apply]; exact isMinBelow_zero top _)
    · have k := congrFun (out2_later m c ⟨n + 1, h⟩ h0) (ix2 b j)
      rw [show (outsAt0 m c (n + 1) h).2 (ix2 b j) = _ from k]
      have hb : bat ⟨n, Nat.lt_of_succ_lt h⟩ b = bat ⟨n + 1, h⟩ b := Fin.ext (by show 8 * (n / 8) + b.val = 8 * ((n + 1) / 8) + b.val; omega)
      have hprev := ih (Nat.lt_of_succ_lt h) b j
      rw [hb, show n % 8 + 1 = (n + 1) % 8 from by omega] at hprev
      exact col_min (xb m c ⟨n + 1, h⟩) (yb m c ⟨n + 1, h⟩) (rxb m c ⟨n + 1, h⟩) (ryb m c ⟨n + 1, h⟩) (X m c) (Y m c) (RX m c) (RY m c)
        (bat ⟨n + 1, h⟩ b) (pnt ⟨n + 1, h⟩) b (fun d i => xb_apply m c ⟨n + 1, h⟩ b d i) (fun d j => yb_apply m c ⟨n + 1, h⟩ b d j)
        (fun i => rxb_apply m c ⟨n + 1, h⟩ b i) (fun j => ryb_apply m c ⟨n + 1, h⟩ b j)
        (outsAt0 m c n (Nat.lt_of_succ_lt h)).2 ((n + 1) % 8) (Nat.mod_lt _ (by omega)) (fun i => rfl) j hprev

/-- At the last tile of a batch half the running minimum is complete: `nearX`. -/
theorem out2_apply (c : Dev nD) (t : Fin cfg0.N) (h7 : t.val % 8 = 7) (b : Fin 8) (j : Fin 2048) :
    (outsAt0 m c t.val t.isLt).2 (ix2 b j) = nearX two top (RX m c) (RY m c) (X m c) (Y m c) (ix2 (bat t b) j) := by
  have h := out2_min m c t.val t.isLt b j
  rw [h7] at h
  exact h.eq_fold

end Cert.KernelIdeal.Outs

end
-- ==== Proof.Final.lean ====
/-
  The idealized kernel's run, read: its result is the mean over the points of `y` of `nearX` plus the mean over the
  points of `x` of `nearY`.

  The first output array [16, 2048] is written back at every grid point, block (t / 8, t % 8) of size [8, 256]; the
  sixteen blocks tile it, and each holds `nearY` there. The second output array is written back at the last tile of
  each batch half (points 7 and 15), block (t / 8, 0) of size [8, 2048]; the two blocks tile it, and by then the
  running minimum is complete: `nearX`. The host operations after the region (two sums over the points, two divisions
  by 2048, one addition) are then applied to these two arrays.
-/
import proofs.«125510_j6820408066663_1_alg».proof.Proof.Outs
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Outs Cert.Nearest

variable (m : (ℓ : Loc nD τ sig) → Buf (Elt Ideal) ℓ) (ρ : Dev nD → PrngReg)

/-- The two arrays the region leaves. -/
abbrev arrY (c : Dev nD) : S16x2048.Idx → Elt Ideal .f32 := nearY two top (RX m c) (RY m c) (X m c) (Y m c)
abbrev arrX (c : Dev nD) : S16x2048.Idx → Elt Ideal .f32 := nearX two top (RX m c) (RY m c) (X m c) (Y m c)

/-- The same with the squared norms spelled as the host operations before the region compute them: the sum over the
    three coordinates, from zero, of the squares. -/
theorem arrX_eq (c : Dev nD) : arrX m c
    = nearX two top
        (Host.reduceAdd (mulf (X m c) (X m c)) (constant (F := Ideal) S_ .f32 0x00000000#32) reducesTo_S16x2048x3_S16x2048_d2 h_S_)
        (Host.reduceAdd (mulf (Y m c) (Y m c)) (constant (F := Ideal) S_ .f32 0x00000000#32) reducesTo_S16x2048x3_S16x2048_d2 h_S_)
        (X m c) (Y m c) := by
  show nearX two top (V m c main_v3) (V m c main_v5) _ _ = _
  rw [V_v3, V_v5]

theorem arrY_eq (c : Dev nD) : arrY m c
    = nearY two top
        (Host.reduceAdd (mulf (X m c) (X m c)) (constant (F := Ideal) S_ .f32 0x00000000#32) reducesTo_S16x2048x3_S16x2048_d2 h_S_)
        (Host.reduceAdd (mulf (Y m c) (Y m c)) (constant (F := Ideal) S_ .f32 0x00000000#32) reducesTo_S16x2048x3_S16x2048_d2 h_S_)
        (X m c) (Y m c) := by
  show nearY two top (V m c main_v3) (V m c main_v5) _ _ = _
  rw [V_v3, V_v5]

/-! ## What each point writes back -/

theorem flushed4_eq (c : Dev nD) (t : Fin cfg0.N) :
    (dats m 0 c).flushed 4 t = ((cfg0.win 4).blk t).view.read (Elt Ideal) (arrY m c) := by
  show (cfg0.win 4).cut (grid0.coords t) ((dats m 0 c).after 4 t) = _
  rw [after0_4]
  obtain ⟨h0, h1⟩ := index4 t
  have key : ∀ y : S8x256.Idx, (outsAt0 m c t.val t.isLt).1 y = arrY m c (((cfg0.win 4).blk t).view.emb y) := by
    intro y
    obtain ⟨b, i, rfl⟩ : ∃ (b : Fin 8) (i : Fin 256), y = ix2 b i := ⟨y 0, y 1, eq_ix2 y⟩
    refine (out1_apply m c t b i).trans (congrArg (arrY m c) (funext fun a => Fin.ext ?_))
    match a with
    | ⟨0, _⟩ => show 8 * (t.val / 8) + b.val = win0_4.index t 0 * 8 + 1 * b.val; rw [h0]; omega
    | ⟨1, _⟩ => show 256 * (t.val % 8) + i.val = win0_4.index t 1 * 256 + 1 * i.val; rw [h1]; omega
  exact funext key

theorem flushed5_eq (c : Dev nD) (t : Fin cfg0.N) (h7 : t.val % 8 = 7) :
    (dats m 0 c).flushed 5 t = ((cfg0.win 5).blk t).view.read (Elt Ideal) (arrX m c) := by
  show (cfg0.win 5).cut (grid0.coords t) ((dats m 0 c).after 5 t) = _
  rw [after0_5]
  obtain ⟨h0, h1⟩ := index5 t
  have key : ∀ y : S8x2048.Idx, (outsAt0 m c t.val t.isLt).2 y = arrX m c (((cfg0.win 5).blk t).view.emb y) := by
    intro y
    obtain ⟨b, j, rfl⟩ : ∃ (b : Fin 8) (j : Fin 2048), y = ix2 b j := ⟨y 0, y 1, eq_ix2 y⟩
    refine (out2_apply m c t h7 b j).trans (congrArg (arrX m c) (funext fun a => Fin.ext ?_))
    match a with
    | ⟨0, _⟩ => show 8 * (t.val / 8) + b.val = win0_5.index t 0 * 8 + 1 * b.val; rw [h0]; omega
    | ⟨1, _⟩ => show j.val = win0_5.index t 1 * 2048 + 1 * j.val; rw [h1]; omega
  exact funext key

/-! ## The blocks tile the arrays -/

theorem mem_blk4 (t : Fin cfg0.N) (i : S16x2048.Idx) :
    i ∈ ((cfg0.win 4).blk t).view.set
      ↔ ∀ a : Fin 2, win0_4.index t a * S8x256.size a ≤ (i a).val ∧ (i a).val < win0_4.index t a * S8x256.size a + S8x256.size a := by
  show i ∈ ((View.whole main_v6_0).slice (win0_4.rect t)).set ↔ _
  rw [View.set_slice_whole, Rect.mem_set_unit]
  exact Iff.rfl

theorem mem_blk5 (t : Fin cfg0.N) (i : S16x2048.Idx) :
    i ∈ ((cfg0.win 5).blk t).view.set
      ↔ ∀ a : Fin 2, win0_5.index t a * S8x2048.size a ≤ (i a).val ∧ (i a).val < win0_5.index t a * S8x2048.size a + S8x2048.size a := by
  show i ∈ ((View.whole main_v6_1).slice (win0_5.rect t)).set ↔ _
  rw [View.set_slice_whole, Rect.mem_set_unit]
  exact Iff.rfl

theorem cover4 (i : S16x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  let t : Fin cfg0.N := ⟨8 * ((i 0).val / 8) + (i 1).val / 256, by rw [show cfg0.N = 16 from N_0]; omega⟩
  have ht : t.val = 8 * ((i 0).val / 8) + (i 1).val / 256 := rfl
  obtain ⟨h0, h1⟩ := index4 t
  refine ⟨t, flush0_4 t, ?_⟩
  rw [mem_blk4]
  intro a
  match a with
  | ⟨0, _⟩ => show win0_4.index t 0 * 8 ≤ (i 0).val ∧ (i 0).val < win0_4.index t 0 * 8 + 8; rw [h0, ht]; omega
  | ⟨1, _⟩ => show win0_4.index t 1 * 256 ≤ (i 1).val ∧ (i 1).val < win0_4.index t 1 * 256 + 256; rw [h1, ht]; omega

theorem cover5 (i : S16x2048.Idx) : ∃ t : Fin cfg0.N, (cfg0.win 5).flush t = true ∧ i ∈ ((cfg0.win 5).blk t).view.set := by
  have hi0 : (i 0).val < 16 := (i 0).isLt
  have hi1 : (i 1).val < 2048 := (i 1).isLt
  let t : Fin cfg0.N := ⟨8 * ((i 0).val / 8) + 7, by rw [show cfg0.N = 16 from N_0]; omega⟩
  have ht : t.val = 8 * ((i 0).val / 8) + 7 := rfl
  obtain ⟨h0, h1⟩ := index5 t
  refine ⟨t, (flush0_5 t).mpr (by rw [ht]; omega), ?_⟩
  rw [mem_blk5]
  intro a
  match a with
  | ⟨0, _⟩ => show win0_5.index t 0 * 8 ≤ (i 0).val ∧ (i 0).val < win0_5.index t 0 * 8 + 8; rw [h0, ht]; omega
  | ⟨1, _⟩ => show win0_5.index t 1 * 2048 ≤ (i 1).val ∧ (i 1).val < win0_5.index t 1 * 2048 + 2048; rw [h1]; omega

/-! ## The arrays after the region -/

theorem final4 (c : Dev nD) : (dats m 0 c).arrAt 4 cfg0.N = arrY m c :=
  (dats m 0 c).arrAt_eq_of_cover 4 (arrY m c) (fun t _ => flushed4_eq m c t) cover4

theorem final5 (c : Dev nD) : (dats m 0 c).arrAt 5 cfg0.N = arrX m c :=
  (dats m 0 c).arrAt_eq_of_cover 5 (arrX m c) (fun t hf => flushed5_eq m c t ((flush0_5 t).mp hf)) cover5

/-! ## The host operations after the region -/

/-- The two means added: the sum over the points from zero, divided by the literal 2048, for each array. -/
def meanSum (dl dr : S16x2048.Idx → Elt Ideal .f32) : S16.Idx → Elt Ideal .f32 :=
  addf (Host.divf (Host.reduceAdd dl (constant (F := Ideal) S_ .f32 0x00000000#32) reducesTo_S16x2048_S16_d1 h_S_)
      (broadcastInDim S16 ![] bcast_S_S16 (constant (F := Ideal) S_ .f32 0x45000000#32)))
    (Host.divf (Host.reduceAdd dr (constant (F := Ideal) S_ .f32 0x00000000#32) reducesTo_S16x2048_S16_d1 h_S_)
      (broadcastInDim S16 ![] bcast_S_S16 (constant (F := Ideal) S_ .f32 0x45000000#32)))

theorem tail_eq (c : Dev nD) :
    Pipeline.afterTail₀ cfgs (dats m) 0 (V0 m) [hostOps1] c main_v13 = meanSum (arrX m c) (arrY m c) := by
  unfold Pipeline.afterTail₀
  show StableHlo.after hostOps1 _ (Proc.devRef .tc main_v13) = _
  after_results
  have e5 : Pipeline.withArrays (cfgs 0).spec c (V0 m c) (fun w => (dats m 0 c).arrAt w (cfgs 0).N) (Proc.devRef .tc main_v6_1) = arrX m c :=
    (Pipeline.withArrays_arr spec0 launch0.win.arr_inj c _ _ 5).trans (final5 m c)
  have e4 : Pipeline.withArrays (cfgs 0).spec c (V0 m c) (fun w => (dats m 0 c).arrAt w (cfgs 0).N) (Proc.devRef .tc main_v6_0) = arrY m c :=
    (Pipeline.withArrays_arr spec0 launch0.win.arr_inj c _ _ 4).trans (final4 m c)
  rw [e5, e4]
  rfl

/-! ## The run, read -/

/-- Every weakly fair execution of the idealized kernel program terminates with its result at the two means added
    and its arguments unchanged. -/
theorem run : θ_run defs (onTc (τ := τ) (main (F := Ideal))) ⟨m, fun _ => 0, ρ⟩ fun r => ∀ c : Dev nD,
      r.2.mem ((c.tc : Thread nD τ).loc main_v13) = meanSum (arrX m c) (arrY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.lean ====
/-
  The proof of `Cert.Claim`: a tiled nearest-neighbour kernel against its whole-array reference, over the extended reals.

  For two clouds `x`, `y` of 2048 points of ℝ³ in each of 16 batch entries, both programs compute the pairwise quantity
  `P b i j = (|x b i|² + |y b j|²) - 2 ⟨x b i, y b j⟩`, its minimum over `i` for every `j` and over `j` for every `i`
  (minima from `+∞`), and return the mean over `j` of the first plus the mean over `i` of the second.

  The reference forms the whole 16 × 2048 × 2048 array by a batched contraction and two reductions. The kernel walks a
  2 × 8 grid: at each point it forms the quantity for 8 batch entries and 256 points of `x` against all points of `y`,
  the inner product as three products added to zero in turn; the minimum over `j` is final at once, the minimum over `i`
  is a running minimum kept in the output block across the eight tiles of a batch half and reset to `+∞` at the first.
  At the extended reals the two agree term by term: adding to zero and in order is the sum over the three coordinates
  (addition is associative and `0 + a = a`), and a minimum taken tile by tile from `+∞` is the minimum over all indices
  (`c ≤ min a b ↔ c ≤ a ∧ c ≤ b`). No distributivity and no cancellation is used, so the precondition (finite inputs)
  is never opened. The squared norms and the closing means are the same host operations in both programs.

  The three frames: the two kernel programs by their generated frame certificates, the reference by its generated
  run. The idealization rewrote nothing, so `preserves` is `True`.
-/
import proofs.«125510_j6820408066663_1_alg».proof.Defs
import proofs.«125510_j6820408066663_1_alg».proof.Proof.Gen.Kernel
import proofs.«125510_j6820408066663_1_alg».proof.Proof.Gen.Kernel.Frame
import proofs.«125510_j6820408066663_1_alg».proof.Proof.Gen.KernelIdeal
import proofs.«125510_j6820408066663_1_alg».proof.Proof.Gen.KernelIdeal.Frame
import proofs.«125510_j6820408066663_1_alg».proof.Proof.Gen.ReferenceIdeal
import proofs.«125510_j6820408066663_1_alg».proof.Proof.Gen.ReferenceIdeal.Run
import proofs.«125510_j6820408066663_1_alg».proof.Proof.Gen.ReferenceIdeal.Read
import proofs.«125510_j6820408066663_1_alg».proof.Proof.Gen.Pre_finite_inputs
import proofs.«125510_j6820408066663_1_alg».proof.Proof.RefSide
import proofs.«125510_j6820408066663_1_alg».proof.Proof.Final
import Idealize.ShloMosaic.Adequacy
import Idealize.ShloMosaic.Init

noncomputable section

namespace Cert.Proof

open Idealize.ShloMosaic Idealize.ShloMosaic.TcCoe Idealize.SL.Sem

/-- The reference's result term is the two means added of its two minimum arrays, which are the specification's. -/
theorem reference_eq (x0 x1 : (⟨Cert.ReferenceIdeal.S16x2048x3, .f32⟩ : BufTy).Contents (Elt Ideal)) :
    Cert.ReferenceIdeal.Read.val_main_v21 (F := Ideal) x0 x1
      = Cert.KernelIdeal.Final.meanSum
          (Cert.Nearest.nearX Cert.KernelIdeal.Outs.two Cert.KernelIdeal.Outs.top
            (Cert.ReferenceIdeal.Read.val_main_v1 (F := Ideal) x0) (Cert.ReferenceIdeal.Read.val_main_v3 (F := Ideal) x1) x0 x1)
          (Cert.Nearest.nearY Cert.KernelIdeal.Outs.two Cert.KernelIdeal.Outs.top
            (Cert.ReferenceIdeal.Read.val_main_v1 (F := Ideal) x0) (Cert.ReferenceIdeal.Read.val_main_v3 (F := Ideal) x1) x0 x1) := by
  rw [← Cert.ReferenceIdeal.RefSide.nearX_eq x0 x1, ← Cert.ReferenceIdeal.RefSide.nearY_eq x0 x1]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's result at the two means of the specification's minima of its own arguments, the
    reference's at the same of arguments that agree. -/
theorem algebraic : Cert.algebraic_KernelIdeal_ReferenceIdeal := by
  intro m ρ m' ρ' _ hagree
  refine ⟨fun c => Cert.KernelIdeal.Final.meanSum (Cert.KernelIdeal.Final.arrX m c) (Cert.KernelIdeal.Final.arrY m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Final.meanSum (Cert.KernelIdeal.Final.arrX m c) (Cert.KernelIdeal.Final.arrY m c)
  rw [(hagree c).1, (hagree c).2, Cert.ReferenceIdeal.Read.val_main_v21_eq, reference_eq,
    Cert.KernelIdeal.Final.arrX_eq, Cert.KernelIdeal.Final.arrY_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
